-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x128 .f32) (main_arg2 : FVec F S10000x10000 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256 : Shape := ⟨1, ![256]⟩
abbrev S1x256 : Shape := ⟨2, ![1, 256]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S256, .f32⟩
  | .hbm, ⟨6, _⟩ => ⟨S1x256, .f32⟩
  | .hbm, ⟨7, _⟩ => ⟨S10000x128, .f32⟩
  | .hbm, ⟨8, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x256, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S128_S128_S256_d0 : Shape.Concatenates [S128, S128] S256 0
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S10000x256_S10000x128_0_0 : ∀ a, (![0, 0] : Fin 2 → Nat) a + S10000x128.size a ≤ S10000x256.size a
  shapeCasts_S10000x128_S10000x128 : S10000x128.ShapeCasts S10000x128
  packedbf16_S10000x256_S10000x128_0_0 : (Rect.unit (s := S10000x256) ![0, 0] S10000x128.size inb_S10000x256_S10000x128_0_0).PackedRows (EltTy.packing .bf16)
  inb_S10000x256_S10000x128_0_128 : ∀ a, (![0, 128] : Fin 2 → Nat) a + S10000x128.size a ≤ S10000x256.size a
  packedbf16_S10000x256_S10000x128_0_128 : (Rect.unit (s := S10000x256) ![0, 128] S10000x128.size inb_S10000x256_S10000x128_0_128).PackedRows (EltTy.packing .bf16)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  slices_S400x256_o0_0_S400x128 : S400x256.Slices ![0, 0] S400x128
  inb_S400x128_S400x128_0_0 : ∀ a, (![0, 0] : Fin 2 → Nat) a + S400x128.size a ≤ S400x128.size a
  h_S400x128 : 0 < S400x128.numel
  slices_S400x256_o0_128_S400x128 : S400x256.Slices ![0, 128] S400x128
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_call1_cst : Ref sig .tc := ⟨.hbm, 18, rfl⟩
abbrev main_call1_v0 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.CaseValues.lean ====
/-
  What one run of the kernel body leaves behind, case by case, for any float instance.

  The body keeps a scratch array of shape [10000, 256]. At the grid's first point it fills it: columns 0..127 with the
  product (feature_ori block) x (weight block), columns 128..255 with (feature_aug block) x (weight block), each
  narrowed to the scratch's element type. Those two column halves tile the scratch, so its contents afterwards are
  one function of the three input blocks; it is called `support` here. At every point the body then multiplies the
  point's 400 rows of the adjacency block into the scratch, adds the (doubled) bias row, takes the maximum with zero,
  and stores the left 128 columns to the first output block and the right 128 to the second.

  At the first point the scratch read by that product is what the same run has just stored (the two halves, read
  back whole); at a later point it is what the point before left, and the run stores nothing into it.
-/
import proofs.«172569_g18528488915635_cont_8to1_1622_9_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The printed offsets of an access to a whole buffer are the zero function on its two axes. -/
theorem zero_offsets : (![0, 0] : Fin 2 → Nat) = fun _ => 0 :=
  funext fun a => match a with | ⟨0, _⟩ => rfl | ⟨1, _⟩ => rfl

/-- The scratch as two stored column halves: `right` through columns 128..255 (stored last), `left` through
    columns 0..127. -/
abbrev halves (left right : FVec F S10000x128 .bf16) : List (View.Piece (Elt F) S10000x256 .bf16) :=
  [⟨Rect.unit ![0, 128] S10000x128.size Facts₀.inb_S10000x256_S10000x128_0_128, right⟩,
   ⟨Rect.unit ![0, 0] S10000x128.size Facts₀.inb_S10000x256_S10000x128_0_0, left⟩]

/-- Every position of the scratch lies in one of the two halves. -/
theorem halves_cover (left right : FVec F S10000x128 .bf16) (y : S10000x256.Idx) :
    ∃ p ∈ halves left right, y ∈ p.1.set :=
  View.cover_of_tiledL (halves left right) S10000x128.size (by sl_kernel_rfl) y

/-- THE SCRATCH after the first point: the two narrowed products side by side, as a function of the blocks of
    feature_ori (`x0`), feature_aug (`x1`) and weight (`x2`). -/
def support (x0 x1 : Vec F S10000x128 .f32) (x2 : Vec F S128x128 .f32) : Vec F S10000x256 .bf16 :=
  View.canon (halves (k0_pay1 x0 x2) (k0_pay2 x1 x2))

variable (c : Dev nD) (i : grid0.Coords)
  (a1 : Memref sig .tc .vmem S10000x128 .f32) (h1 : a1.IsWhole)
  (a2 : Memref sig .tc .vmem S10000x128 .f32) (h2 : a2.IsWhole)
  (a3 : Memref sig .tc .vmem S128x128 .f32) (h3 : a3.IsWhole)
  (a4 : Memref sig .tc .vmem S1x256 .f32) (h4 : a4.IsWhole)
  (a5 : Memref sig .tc .vmem S400x10000 .f32) (h5 : a5.IsWhole)
  (a6 : Memref sig .tc .vmem S400x128 .f32) (h6 : a6.IsWhole)
  (a7 : Memref sig .tc .vmem S400x128 .f32) (h7 : a7.IsWhole)
  (a8 : Memref sig .tc .vmem S10000x256 .bf16) (h8 : a8.IsWhole)
  (x0 x1 : Vec F S10000x128 .f32) (x2 : Vec F S128x128 .f32) (x3 : Vec F S1x256 .f32) (x4 : Vec F S400x10000 .f32)

/-- First point: the scratch ends holding `support` of the three blocks. -/
theorem scratch_first (hc : cond0_0 i) : sout0_A_0 c i a1 h1 a2 h2 a3 h3 a4 h4 a5 h5 a6 h6 a7 h7 a8 h8 hc x0 x1 x2 x3 x4 = support x0 x1 x2 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  simp only [View.readAt_eq_ld, h1.read_unread, h2.read_unread, h3.read_unread,
    View.ld_unit_zero (S := S10000x128) zero_offsets, View.ld_unit_zero (S := S128x128) zero_offsets]
  rfl

/-- First point: the first output block is the left-half payload of the adjacency block `x4`, the scratch just
    stored, and the bias row `x3`. -/
theorem left_first (hc : cond0_0 i) :
    out0_A_5 c i a1 h1 a2 h2 a3 h3 a4 h4 a5 h5 a6 h6 a7 h7 a8 h8 hc x0 x1 x2 x3 x4 = k0_pay4 x4 (support x0 x1 x2) x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero zero_offsets]
  simp only [View.readAt_eq_ld, h1.read_unread, h2.read_unread, h3.read_unread, h4.read_unread, h5.read_unread,
    View.ld_unit_zero (S := S10000x128) zero_offsets, View.ld_unit_zero (S := S128x128) zero_offsets,
    View.ld_unit_zero (S := S1x256) zero_offsets, View.ld_unit_zero (S := S400x10000) zero_offsets]
  rw [View.readCov_eq_canon_ld _ _ _ (halves_cover _ _), View.ld_unit_zero (S := S10000x256) zero_offsets]
  rfl

/-- First point: the second output block, the right-half payload of the same three. -/
theorem right_first (hc : cond0_0 i) :
    out0_A_6 c i a1 h1 a2 h2 a3 h3 a4 h4 a5 h5 a6 h6 a7 h7 a8 h8 hc x0 x1 x2 x3 x4 = k0_pay5 x4 (support x0 x1 x2) x3 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero zero_offsets]
  simp only [View.readAt_eq_ld, h1.read_unread, h2.read_unread, h3.read_unread, h4.read_unread, h5.read_unread,
    View.ld_unit_zero (S := S10000x128) zero_offsets, View.ld_unit_zero (S := S128x128) zero_offsets,
    View.ld_unit_zero (S := S1x256) zero_offsets, View.ld_unit_zero (S := S400x10000) zero_offsets]
  rw [View.readCov_eq_canon_ld _ _ _ (halves_cover _ _), View.ld_unit_zero (S := S10000x256) zero_offsets]
  rfl

/-- A later point: the first output block is the left-half payload of the adjacency block, the scratch `xs` the
    point before left, and the bias row. -/
theorem left_later (hc : ¬cond0_0 i) (xs : Vec F S10000x256 .bf16) :
    out0_B_5 c i a1 h1 a2 h2 a3 h3 a4 h4 a5 h5 a6 h6 a7 h7 a8 h8 hc x0 x1 x2 x3 x4 xs = k0_pay4 x4 xs x3 := by
  unfold out0_B_5
  rw [View.read_writes_eq_canon _ _ _ (cover0_B_5 c i a1 h1 a2 h2 a3 h3 a4 h4 a5 h5 a6 h6 a7 h7 a8 h8 hc x0 x1 x2 x3 x4 xs)]
  unfold kernelRun0_B
  dsimp only
  sl_unfold_words
  rw [View.canon_unit_zero zero_offsets]
  simp only [View.readAt_eq_ld, h4.read_unread, h5.read_unread, h8.read_unread,
    View.ld_unit_zero (S := S1x256) zero_offsets, View.ld_unit_zero (S := S400x10000) zero_offsets,
    View.ld_unit_zero (S := S10000x256) zero_offsets]

/-- A later point: the second output block, the right-half payload of the same three. -/
theorem right_later (hc : ¬cond0_0 i) (xs : Vec F S10000x256 .bf16) :
    out0_B_6 c i a1 h1 a2 h2 a3 h3 a4 h4 a5 h5 a6 h6 a7 h7 a8 h8 hc x0 x1 x2 x3 x4 xs = k0_pay5 x4 xs x3 := by
  unfold out0_B_6
  rw [View.read_writes_eq_canon _ _ _ (cover0_B_6 c i a1 h1 a2 h2 a3 h3 a4 h4 a5 h5 a6 h6 a7 h7 a8 h8 hc x0 x1 x2 x3 x4 xs)]
  unfold kernelRun0_B
  dsimp only
  sl_unfold_words
  rw [View.canon_unit_zero zero_offsets]
  simp only [View.readAt_eq_ld, h4.read_unread, h5.read_unread, h8.read_unread,
    View.ld_unit_zero (S := S1x256) zero_offsets, View.ld_unit_zero (S := S400x10000) zero_offsets,
    View.ld_unit_zero (S := S10000x256) zero_offsets]

end Cert.KernelIdeal.CaseValues

end
-- ==== Proof.Points.lean ====
/-
  Point by point over the grid of 25 row blocks.

  The blocks of feature_ori, feature_aug, weight and the doubled bias do not move with the point; the adjacency
  block at point t is rows 400t .. 400t+399. The scratch is filled at point 0 and only read afterwards, so after
  EVERY point it holds the same contents: `support` of the three blocks the first point saw. Hence what point t
  leaves in the two output blocks is the left and the right payload of (adjacency block t, that scratch, bias row).
-/
import proofs.«172569_g18528488915635_cont_8to1_1622_9_alg».proof.Proof.CaseValues

noncomputable section

open Idealize.ShloMosaic Idealize.ShloMosaic.TcCoe Idealize.SL.Sem

namespace Cert.KernelIdeal.Points

open Cert.KernelIdeal Cert.KernelIdeal.Gen Cert.KernelIdeal.CaseValues

variable {F : FTy → Type} [FloatOps F]
variable (m : (ℓ : Loc nD τ sig) → Buf (Elt F) ℓ)

/-- The grid has 25 points. -/
theorem grid_points : cfg0.N = 25 := N_0

/-- The grid's first point. -/
abbrev first : Fin cfg0.N := ⟨0, by rw [grid_points]; decide⟩

/-- The input blocks at a point, each at its literal shape. -/
abbrev oriBlock (c : Dev nD) (t : Fin cfg0.N) : Vec F S10000x128 .f32 := iblk m c 0 t
abbrev augBlock (c : Dev nD) (t : Fin cfg0.N) : Vec F S10000x128 .f32 := iblk m c 1 t
abbrev weightBlock (c : Dev nD) (t : Fin cfg0.N) : Vec F S128x128 .f32 := iblk m c 2 t
abbrev biasBlock (c : Dev nD) (t : Fin cfg0.N) : Vec F S1x256 .f32 := iblk m c 3 t
abbrev adjBlock (c : Dev nD) (t : Fin cfg0.N) : Vec F S400x10000 .f32 := iblk m c 4 t

/-- What the scratch holds once the first point has run. -/
def carried (c : Dev nD) : Vec F S10000x256 .bf16 :=
  support (oriBlock m c first) (augBlock m c first) (weightBlock m c first)

/-- THE SCRATCH IS CONSTANT: after every point it holds what the first point stored. Induction on the point: the
    first point stores it, every later point hands on what it found. -/
theorem scratch_after (c : Dev nD) : ∀ (n : ℕ) (h : n < cfg0.N), (outsAt0 m c n h).2.2 = carried m c
  | 0, h => by
    rw [outsAt0_A m c ⟨0, h⟩ rfl]
    dsimp only
    exact scratch_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      (ms0_5 ⟨0, h⟩) (hs0_5 ⟨0, h⟩) (ms0_6 ⟨0, h⟩) (hs0_6 ⟨0, h⟩) scM0_0 (Memref.isWhole_whole _)
      (oriBlock m c ⟨0, h⟩) (augBlock m c ⟨0, h⟩) (weightBlock m c ⟨0, h⟩) (biasBlock m c ⟨0, h⟩) (adjBlock m c ⟨0, h⟩)
      ((hcond0_0 ⟨0, h⟩).mpr rfl)
  | n + 1, h => by
    have hN : cfg0.N = 25 := grid_points
    have hB : ¬(⟨n + 1, h⟩ : Fin cfg0.N).val % 25 = 0 := by dsimp only; omega
    rw [outsAt0_B m c ⟨n + 1, h⟩ hB]
    dsimp only
    unfold sout0_B_0
    exact scratch_after c n (Nat.lt_of_succ_lt h)

/-- The first output block after point t: the left payload of that point's adjacency rows, the constant scratch and
    the bias row. -/
theorem left_after (c : Dev nD) (t : Fin cfg0.N) :
    (outsAt0 m c t.val t.isLt).1 = k0_pay4 (adjBlock m c t) (carried m c) (biasBlock m c t) := by
  have hN : cfg0.N = 25 := grid_points
  by_cases h0 : t.val % 25 = 0
  · obtain rfl : t = first := Fin.ext (by have := t.isLt; dsimp only; omega)
    rw [outsAt0_A m c first h0]
    dsimp only
    exact left_first c (grid0.coords first) (ms0_0 first) (hs0_0 first) (ms0_1 first) (hs0_1 first)
      (ms0_2 first) (hs0_2 first) (ms0_3 first) (hs0_3 first) (ms0_4 first) (hs0_4 first)
      (ms0_5 first) (hs0_5 first) (ms0_6 first) (hs0_6 first) scM0_0 (Memref.isWhole_whole _)
      (oriBlock m c first) (augBlock m c first) (weightBlock m c first) (biasBlock m c first) (adjBlock m c first)
      ((hcond0_0 first).mpr h0)
  · rw [outsAt0_B m c t h0]
    dsimp only
    rw [left_later c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (oriBlock m c t) (augBlock m c t) (weightBlock m c t) (biasBlock m c t) (adjBlock m c t)
      (fun h => h0 ((hcond0_0 t).mp h)) (outsAt0 m c (t.val - 1) (Nat.lt_of_le_of_lt (Nat.sub_le _ _) t.isLt)).2.2,
      scratch_after m c (t.val - 1) (Nat.lt_of_le_of_lt (Nat.sub_le _ _) t.isLt)]

/-- The second output block after point t: the right payload of the same three. -/
theorem right_after (c : Dev nD) (t : Fin cfg0.N) :
    (outsAt0 m c t.val t.isLt).2.1 = k0_pay5 (adjBlock m c t) (carried m c) (biasBlock m c t) := by
  have hN : cfg0.N = 25 := grid_points
  by_cases h0 : t.val % 25 = 0
  · obtain rfl : t = first := Fin.ext (by have := t.isLt; dsimp only; omega)
    rw [outsAt0_A m c first h0]
    dsimp only
    exact right_first c (grid0.coords first) (ms0_0 first) (hs0_0 first) (ms0_1 first) (hs0_1 first)
      (ms0_2 first) (hs0_2 first) (ms0_3 first) (hs0_3 first) (ms0_4 first) (hs0_4 first)
      (ms0_5 first) (hs0_5 first) (ms0_6 first) (hs0_6 first) scM0_0 (Memref.isWhole_whole _)
      (oriBlock m c first) (augBlock m c first) (weightBlock m c first) (biasBlock m c first) (adjBlock m c first)
      ((hcond0_0 first).mpr h0)
  · rw [outsAt0_B m c t h0]
    dsimp only
    rw [right_later c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (oriBlock m c t) (augBlock m c t) (weightBlock m c t) (biasBlock m c t) (adjBlock m c t)
      (fun h => h0 ((hcond0_0 t).mp h)) (outsAt0 m c (t.val - 1) (Nat.lt_of_le_of_lt (Nat.sub_le _ _) t.isLt)).2.2,
      scratch_after m c (t.val - 1) (Nat.lt_of_le_of_lt (Nat.sub_le _ _) t.isLt)]

end Cert.KernelIdeal.Points

end
-- ==== Proof.PayloadAt.lean ====
/-
  The body's payloads read at one position, over the extended reals.

  Exactly, narrowing a float to a shorter format changes nothing, a shape cast to the same shape changes nothing,
  and a matrix product accumulated into zero is the plain sum of products over the contracted axis. So:

  * each half of the scratch is the exact product (features) x (weight): the same sum the host's `dot_general` of
    the same two operands is, position by position;
  * the wide product of a 400-row adjacency block with the scratch, at row p and column q, is the sum over k below
    10000 of adjacency(p, k) x scratch(k, q);
  * the value kept at (p, q) is the maximum of that sum plus bias(0, q) with zero; the first output block takes
    columns q = c, the second q = c + 128, for c below 128.
-/
import proofs.«172569_g18528488915635_cont_8to1_1622_9_alg».proof.Proof.CaseValues
import proofs.«172569_g18528488915635_cont_8to1_1622_9_alg».proof.Proof.Gen.ReferenceIdeal.Read
import Idealize.ShloMosaic.Lib.Pipeline.Value
import Idealize.ShloMosaic.Lib.ValueIdx
import Idealize.ShloMosaic.PureOps.Ideal.Laws

-- membership in a rectangle with an axis of 10000 positions is looked at structurally, once per coordinate
set_option maxRecDepth 16384

noncomputable section

open Idealize.ShloMosaic Idealize.ShloMosaic.TcCoe Idealize.SL.Sem

namespace Cert.KernelIdeal.PayloadAt

open Cert.KernelIdeal Cert.KernelIdeal.Gen Cert.KernelIdeal.CaseValues
open Idealize.ShloMosaic.ValueIdx (ix2 eq_ix2 contrEquiv1 contrEquiv1_symm_val)

/-! ## The scratch's halves are the host's products -/

/-- The left half: the narrowed, zero-accumulated product of a feature block and the weight block is the host's
    `dot_general` of the two, as whole arrays. Both are, at every position, the sum over the contracted axis of the
    operands' products, under the same dimension numbers. -/
theorem left_half_eq (x : FVec Ideal S10000x128 .f32) (w : FVec Ideal S128x128 .f32) :
    k0_pay1 (F := Ideal) x w = Cert.ReferenceIdeal.Read.val_main_v0 (F := Ideal) x w := by
  funext j
  unfold k0_pay1 Cert.ReferenceIdeal.Read.val_main_v0
  simp only [shapeCast_self, Host.dotGeneral]
  show FloatOps.matmul dot_S10000x128_S128x128_S10000x128_1_0_0_1_n_n none x w (constant S10000x128 .f32 0x00000000#32) j = _
  rw [Ideal.matmul_constant_zero_apply, Ideal.dotGeneral_apply]
  rfl

/-- The right half, the same with the other feature block. -/
theorem right_half_eq (x : FVec Ideal S10000x128 .f32) (w : FVec Ideal S128x128 .f32) :
    k0_pay2 (F := Ideal) x w = Cert.ReferenceIdeal.Read.val_main_v2 (F := Ideal) x w := by
  funext j
  unfold k0_pay2 Cert.ReferenceIdeal.Read.val_main_v2
  simp only [shapeCast_self, Host.dotGeneral]
  show FloatOps.matmul dot_S10000x128_S128x128_S10000x128_1_0_0_1_n_n none x w (constant S10000x128 .f32 0x00000000#32) j = _
  rw [Ideal.matmul_constant_zero_apply, Ideal.dotGeneral_apply]
  rfl

/-! ## The wide product at a position -/

/-- The left operand's row is the output's row. -/
theorem wide_lhs_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- The left operand's column is the contracted position. -/
theorem wide_lhs_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- The right operand's row is the contracted position. -/
theorem wide_rhs_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- The right operand's column is the output's column. -/
theorem wide_rhs_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- Row p, column q of (adjacency block) x (scratch), accumulated into zero: the sum over k of
    adjacency(p, k) x scratch(k, q). -/
theorem wide_product_apply (a : FVec Ideal S400x10000 .bf16) (s : FVec Ideal S10000x256 .bf16) (p : Fin 400) (q : Fin 256) :
    FloatOps.matmul dot_S400x10000_S10000x256_S400x256_1_0_0_1_n_n none a s (constant S400x256 .f32 0x00000000#32) (ix2 p q)
      = ∑ k : Fin 10000, a (ix2 p k) * s (ix2 k q) := by
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun b => Fin.ext (by
    match b with
    | ⟨0, _⟩ => exact wide_lhs_0 _ _
    | ⟨1, _⟩ => exact (wide_lhs_1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun b => Fin.ext (by
    match b with
    | ⟨0, _⟩ => exact (wide_rhs_0 _ _).trans hk
    | ⟨1, _⟩ => exact wide_rhs_1 _ _)
  rw [el, er]

/-! ## What is kept at a position -/

/-- Column q of the widened index: a column of an output block as a column of the 256-wide value's left half. -/
abbrev leftCol (c : Fin 128) : Fin 256 := ⟨c.val, by have := c.isLt; omega⟩
/-- The same column in the right half. -/
abbrev rightCol (c : Fin 128) : Fin 256 := ⟨c.val + 128, by have := c.isLt; omega⟩

/-- The zero the body compares with, as an extended real's bit pattern. -/
abbrev zeroWord : Ideal .f32 := Ideal.ofBits .f32 0x00000000#32

/-- The 256-wide value at (p, q): the maximum with zero of the wide product's sum plus the bias row's entry q. -/
theorem kept_apply (a : FVec Ideal S400x10000 .f32) (s : FVec Ideal S10000x256 .bf16) (b : FVec Ideal S1x256 .f32)
    (p : Fin 400) (q : Fin 256) :
    k0_pay3 (F := Ideal) a s b (ix2 p q)
      = max ((∑ k : Fin 10000, a (ix2 p k) * s (ix2 k q)) + b (ix2 (0 : Fin 1) q)) zeroWord := by
  unfold k0_pay3
  simp only [shapeCast_self]
  rw [ValueIdx.maximumf_apply, ValueIdx.addf_apply]
  rw [show matmul dot_S400x10000_S10000x256_S400x256_1_0_0_1_n_n none (truncf .bf16 a Facts₀.bitsLt_bf16_f32) s (constant S400x256 .f32 0x00000000#32) (ix2 p q)
        = ∑ k : Fin 10000, a (ix2 p k) * s (ix2 k q) from wide_product_apply (truncf .bf16 a Facts₀.bitsLt_bf16_f32) s p q]
  rw [broadcastTo_apply b Facts₀.broadcasts_S1x256_S400x256 (ix2 p q) (ix2 (0 : Fin 1) q) (fun d => match d with
    | ⟨0, _⟩ => by show (0 : Nat) = if (1 : Nat) = 1 then 0 else _; rw [if_pos rfl]
    | ⟨1, _⟩ => by show q.val = if (256 : Nat) = 1 then 0 else q.val; rw [if_neg (by decide)])]
  rfl

/-- The first output block keeps columns 0..127 of that value. -/
theorem left_payload_apply (a : FVec Ideal S400x10000 .f32) (s : FVec Ideal S10000x256 .bf16) (b : FVec Ideal S1x256 .f32)
    (p : Fin 400) (c : Fin 128) :
    k0_pay4 (F := Ideal) a s b (ix2 p c)
      = max ((∑ k : Fin 10000, a (ix2 p k) * s (ix2 k (leftCol c))) + b (ix2 (0 : Fin 1) (leftCol c))) zeroWord := by
  unfold k0_pay4
  rw [extractStridedSlice_apply ![0, 0] (k0_pay3 (F := Ideal) a s b) Facts₀.slices_S400x256_o0_0_S400x128 (ix2 p c) (ix2 p (leftCol c))
    (fun d => match d with
      | ⟨0, _⟩ => by show p.val = 0 + p.val; omega
      | ⟨1, _⟩ => by show c.val = 0 + c.val; omega)]
  exact kept_apply a s b p (leftCol c)

/-- The second output block keeps columns 128..255. -/
theorem right_payload_apply (a : FVec Ideal S400x10000 .f32) (s : FVec Ideal S10000x256 .bf16) (b : FVec Ideal S1x256 .f32)
    (p : Fin 400) (c : Fin 128) :
    k0_pay5 (F := Ideal) a s b (ix2 p c)
      = max ((∑ k : Fin 10000, a (ix2 p k) * s (ix2 k (rightCol c))) + b (ix2 (0 : Fin 1) (rightCol c))) zeroWord := by
  unfold k0_pay5
  rw [extractStridedSlice_apply ![0, 128] (k0_pay3 (F := Ideal) a s b) Facts₀.slices_S400x256_o0_128_S400x128 (ix2 p c) (ix2 p (rightCol c))
    (fun d => match d with
      | ⟨0, _⟩ => by show p.val = 0 + p.val; omega
      | ⟨1, _⟩ => by show c.val + 128 = 128 + c.val; omega)]
  exact kept_apply a s b p (rightCol c)

/-! ## The scratch read in each half -/

variable {F : FTy → Type} [FloatOps F]

/-- A position in columns 0..127 of the scratch is in the half stored first, at the same coordinates. -/
theorem support_left (x0 x1 : Vec F S10000x128 .f32) (x2 : Vec F S128x128 .f32) (k : Fin 10000) (c : Fin 128) :
    support x0 x1 x2 (ix2 k (leftCol c)) = k0_pay1 x0 x2 (ix2 k c) := by
  unfold support
  have hout : ix2 k (leftCol c) ∉ (Rect.unit (s := S10000x256) ![0, 128] S10000x128.size Facts₀.inb_S10000x256_S10000x128_0_128).set := by
    rw [Rect.mem_set_unit]
    intro h
    have h1 : (128 : Nat) ≤ c.val := (h 1).1
    have := c.isLt
    omega
  refine (View.canon_cons_of_not_mem (Val := Elt F)
    (⟨Rect.unit (s := S10000x256) ![0, 128] S10000x128.size Facts₀.inb_S10000x256_S10000x128_0_128, k0_pay2 x1 x2⟩ : View.Piece (Elt F) S10000x256 .bf16)
    [(⟨Rect.unit (s := S10000x256) ![0, 0] S10000x128.size Facts₀.inb_S10000x256_S10000x128_0_0, k0_pay1 x0 x2⟩ : View.Piece (Elt F) S10000x256 .bf16)]
    hout).trans ?_
  have e : ix2 k (leftCol c) = (Rect.unit (s := S10000x256) ![0, 0] S10000x128.size Facts₀.inb_S10000x256_S10000x128_0_0).emb (ix2 k c) :=
    funext fun d => Fin.ext (by
      match d with
      | ⟨0, _⟩ => show k.val = 0 + 1 * k.val; omega
      | ⟨1, _⟩ => show c.val = 0 + 1 * c.val; omega)
  rw [e, View.canon_cons_emb]

/-- A position in columns 128..255 is in the half stored last, 128 columns to the left there. -/
theorem support_right (x0 x1 : Vec F S10000x128 .f32) (x2 : Vec F S128x128 .f32) (k : Fin 10000) (c : Fin 128) :
    support x0 x1 x2 (ix2 k (rightCol c)) = k0_pay2 x1 x2 (ix2 k c) := by
  unfold support
  have e : ix2 k (rightCol c) = (Rect.unit (s := S10000x256) ![0, 128] S10000x128.size Facts₀.inb_S10000x256_S10000x128_0_128).emb (ix2 k c) :=
    funext fun d => Fin.ext (by
      match d with
      | ⟨0, _⟩ => show k.val = 0 + 1 * k.val; omega
      | ⟨1, _⟩ => show c.val + 128 = 128 + 1 * c.val; omega)
  rw [e, View.canon_cons_emb]

end Cert.KernelIdeal.PayloadAt

end
-- ==== Proof.Blocks.lean ====
/-
  From blocks to whole arrays, over the extended reals.

  The arrays the region finds are the launch contents of feature_ori, feature_aug, adjacency and weight, and a
  1 x 256 row the host made by writing the bias twice side by side. The blocks of the first four are read off them:
  features, weight and the bias row whole; the adjacency block of point t is rows 400t .. 400t+399.

  The reference's first result is, at (r, c): max( sum over k of adjacency(r, k) x (sum over j of
  feature_ori(k, j) x weight(j, c)) + bias(c), 0 ), and its second the same with feature_aug. What point t writes to
  the first output array at block row p, column c, is the left payload there: the same maximum, the outer sum over
  the adjacency block's row p (row 400t + p of the array), the inner sum the scratch's left half at (k, c), the bias
  entry column c of the doubled row. So each flushed block is the block of the reference's result; the 25 blocks cover
  the 10000 rows (row r is in block r / 400); hence each output array ends equal to the reference's result.
-/
import proofs.«172569_g18528488915635_cont_8to1_1622_9_alg».proof.Proof.Points
import proofs.«172569_g18528488915635_cont_8to1_1622_9_alg».proof.Proof.PayloadAt
import proofs.«172569_g18528488915635_cont_8to1_1622_9_alg».proof.Proof.Gen.KernelIdeal.Value
import proofs.«172569_g18528488915635_cont_8to1_1622_9_alg».proof.Proof.Gen.ReferenceIdeal.Read
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Cert.KernelIdeal.CaseValues Cert.KernelIdeal.Points Cert.KernelIdeal.PayloadAt
open Idealize.ShloMosaic.ValueIdx (ix1 ix2 eq_ix2)
open Idealize.ShloMosaic.Pipeline (Dat)

variable (m : (ℓ : Loc nD τ sig) → Buf (Elt Ideal) ℓ) (ρ : Dev nD → PrngReg)

/-! ## The arrays, at their literal shapes -/

abbrev oriArr (c : Dev nD) : FVec Ideal S10000x128 .f32 := m ((c : Thread nD τ).loc main_arg0)
abbrev augArr (c : Dev nD) : FVec Ideal S10000x128 .f32 := m ((c : Thread nD τ).loc main_arg1)
abbrev adjArr (c : Dev nD) : FVec Ideal S10000x10000 .f32 := m ((c : Thread nD τ).loc main_arg2)
abbrev weightArr (c : Dev nD) : FVec Ideal S128x128 .f32 := m ((c : Thread nD τ).loc main_arg3)
abbrev biasArr (c : Dev nD) : FVec Ideal S128 .f32 := m ((c : Thread nD τ).loc main_arg4)

/-- The bias written twice side by side, as one row: what the host hands the region. -/
abbrev doubledBias (c : Dev nD) : FVec Ideal S1x256 .f32 :=
  shapeCast S1x256 (concatenate S256 0 [⟨S128, biasArr m c⟩, ⟨S128, biasArr m c⟩] Facts₀.concatenates_S128_S128_S256_d0)
    Facts₀.shapeCasts_S256_S1x256

/-- The reference's first result of these arrays. -/
abbrev leftResult (c : Dev nD) : FVec Ideal S10000x128 .f32 :=
  Cert.ReferenceIdeal.Read.val_main_v10 (F := Ideal) (oriArr m c) (adjArr m c) (weightArr m c) (biasArr m c)
/-- The reference's second result of these arrays. -/
abbrev rightResult (c : Dev nD) : FVec Ideal S10000x128 .f32 :=
  Cert.ReferenceIdeal.Read.val_main_v11 (F := Ideal) (augArr m c) (adjArr m c) (weightArr m c) (biasArr m c)

/-! ## The blocks, read off the arrays -/

/-- The printed index maps, decided over the 25 points: only the adjacency and the two outputs move, by one block
    of rows per point. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0)

/-- Row p of block t is row 400t + p of a 10000-row array. -/
abbrev rowOf (t : Fin cfg0.N) (p : Fin 400) : Fin 10000 :=
  ⟨t.val * 400 + p.val, by have := lt_of_lt_of_eq t.isLt grid_points; have := p.isLt; omega⟩

theorem oriBlock_eq (c : Dev nD) (t : Fin cfg0.N) : oriBlock m c t = oriArr m c := by
  funext y
  obtain ⟨e0, e1, -⟩ := index_facts t
  show V m c main_arg0 (((cfg0.win 0).blk t).view.emb y) = oriArr m c y
  rw [V_main_arg0]
  refine congrArg (oriArr m c) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem augBlock_eq (c : Dev nD) (t : Fin cfg0.N) : augBlock m c t = augArr m c := by
  funext y
  obtain ⟨-, -, e0, e1, -⟩ := index_facts t
  show V m c main_arg1 (((cfg0.win 1).blk t).view.emb y) = augArr m c y
  rw [V_main_arg1]
  refine congrArg (augArr m c) (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

theorem weightBlock_eq (c : Dev nD) (t : Fin cfg0.N) : weightBlock m c t = weightArr m c := by
  funext y
  obtain ⟨-, -, -, -, e0, e1, -⟩ := index_facts t
  show V m c main_arg3 (((cfg0.win 2).blk t).view.emb y) = weightArr m c y
  rw [V_main_arg3]
  refine congrArg (weightArr m c) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The host's two operations before the region leave the doubled bias in the row the region stages. -/
theorem biasRow_eq (c : Dev nD) : (V m c main_v1 : S1x256.Idx → Ideal .f32) = doubledBias m c := by
  dsimp only [Gen.V, Gen.hostOps0]
  after_results
  rfl

theorem biasBlock_eq (c : Dev nD) (t : Fin cfg0.N) : biasBlock m c t = doubledBias m c := by
  funext y
  obtain ⟨-, -, -, -, -, -, e0, e1, -⟩ := index_facts t
  show V m c main_v1 (((cfg0.win 3).blk t).view.emb y) = doubledBias m c y
  rw [biasRow_eq]
  refine congrArg (doubledBias m c) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The adjacency block of point t at (p, k) is the array at (400t + p, k). -/
theorem adjBlock_apply (c : Dev nD) (t : Fin cfg0.N) (p : Fin 400) (k : Fin 10000) :
    adjBlock m c t (ix2 p k) = adjArr m c (ix2 (rowOf t p) k) := by
  obtain ⟨-, -, -, -, -, -, -, -, e0, e1, -⟩ := index_facts t
  show V m c main_arg2 (((cfg0.win 4).blk t).view.emb (ix2 p k)) = adjArr m c (ix2 (rowOf t p) k)
  rw [V_main_arg2]
  refine congrArg (adjArr m c) (funext fun a => Fin.ext ?_)
  match a with
  | ⟨0, _⟩ => show win0_4.index t (0 : Fin 2) * 400 + 1 * p.val = t.val * 400 + p.val; omega
  | ⟨1, _⟩ => show win0_4.index t (1 : Fin 2) * 10000 + 1 * k.val = k.val; omega

/-- The doubled bias row in its left half: entry c of the bias. -/
theorem doubledBias_left (c : Dev nD) (cc : Fin 128) :
    doubledBias m c (ix2 (0 : Fin 1) (leftCol cc)) = biasArr m c (ix1 cc) := by
  show shapeCast S1x256 _ _ (ix2 (0 : Fin 1) (leftCol cc)) = _
  rw [shapeCast_apply _ Facts₀.shapeCasts_S256_S1x256 (ix2 (0 : Fin 1) (leftCol cc)) (ix1 (leftCol cc))
    (by rw [Shape.rowMajor_val_one, Shape.rowMajor_val_two]; show cc.val = 0 * 256 + cc.val; omega)]
  exact concatenate_pair_apply_left (0 : Fin S256.rank) (biasArr m c) (biasArr m c) Facts₀.concatenates_S128_S128_S256_d0
    (ix1 (leftCol cc)) rfl (ix1 cc) (fun b => match b with | ⟨0, _⟩ => rfl)

/-- The doubled bias row in its right half: entry c of the bias again. -/
theorem doubledBias_right (c : Dev nD) (cc : Fin 128) :
    doubledBias m c (ix2 (0 : Fin 1) (rightCol cc)) = biasArr m c (ix1 cc) := by
  show shapeCast S1x256 _ _ (ix2 (0 : Fin 1) (rightCol cc)) = _
  rw [shapeCast_apply _ Facts₀.shapeCasts_S256_S1x256 (ix2 (0 : Fin 1) (rightCol cc)) (ix1 (rightCol cc))
    (by rw [Shape.rowMajor_val_one, Shape.rowMajor_val_two]; show cc.val + 128 = 0 * 256 + (cc.val + 128); omega)]
  exact concatenate_pair_apply_right (0 : Fin S256.rank) (biasArr m c) (biasArr m c) Facts₀.concatenates_S128_S128_S256_d0
    (ix1 (rightCol cc)) rfl rfl (ix1 cc)
    (fun b hb => match b, hb with | ⟨0, _⟩, hb => absurd (Fin.ext rfl) hb)
    (by show cc.val + 128 = cc.val + 128; rfl)

/-! ## The reference's results at a position -/

theorem outer_left_index (r : Fin 10000) (cc : Fin 128) (k : Fin 10000) :
    Cert.ReferenceIdeal.Read.lidx_main_v1 (ix2 r cc) k = ix2 r k :=
  funext fun a => match a with | ⟨0, _⟩ => rfl | ⟨1, _⟩ => rfl
theorem outer_right_index (r : Fin 10000) (cc : Fin 128) (k : Fin 10000) :
    Cert.ReferenceIdeal.Read.ridx_main_v1 (ix2 r cc) k = ix2 k cc :=
  funext fun a => match a with | ⟨0, _⟩ => rfl | ⟨1, _⟩ => rfl
theorem bias_index (r : Fin 10000) (cc : Fin 128) :
    Cert.ReferenceIdeal.Read.idx_main_v4 (Cert.ReferenceIdeal.Read.idx_main_v5 (ix2 r cc)) = ix1 cc :=
  funext fun a => match a with | ⟨0, _⟩ => rfl

/-- The reference's first result at (r, c): the maximum with zero of the adjacency row r times column c of
    (feature_ori x weight), plus bias(c). -/
theorem leftResult_apply (c : Dev nD) (r : Fin 10000) (cc : Fin 128) :
    leftResult m c (ix2 r cc)
      = max ((∑ k : Fin 10000, adjArr m c (ix2 r k) * Cert.ReferenceIdeal.Read.val_main_v0 (F := Ideal) (oriArr m c) (weightArr m c) (ix2 k cc))
          + biasArr m c (ix1 cc)) zeroWord := by
  show Cert.ReferenceIdeal.Read.val_main_v10 (F := Ideal) (oriArr m c) (adjArr m c) (weightArr m c) (biasArr m c) (ix2 r cc) = _
  rw [Cert.ReferenceIdeal.Read.val_main_v10_apply, Cert.ReferenceIdeal.Read.val_main_v6_apply, Cert.ReferenceIdeal.Read.val_main_v1_apply, Cert.ReferenceIdeal.Read.val_main_v5_apply,
    Cert.ReferenceIdeal.Read.val_main_v4_apply, Cert.ReferenceIdeal.Read.val_main_call0_v0_apply, Cert.ReferenceIdeal.Read.val_main_call0_cst_apply]
  simp only [outer_left_index, outer_right_index, bias_index]
  rfl

/-- The second result: the same with feature_aug. -/
theorem rightResult_apply (c : Dev nD) (r : Fin 10000) (cc : Fin 128) :
    rightResult m c (ix2 r cc)
      = max ((∑ k : Fin 10000, adjArr m c (ix2 r k) * Cert.ReferenceIdeal.Read.val_main_v2 (F := Ideal) (augArr m c) (weightArr m c) (ix2 k cc))
          + biasArr m c (ix1 cc)) zeroWord := by
  show Cert.ReferenceIdeal.Read.val_main_v11 (F := Ideal) (augArr m c) (adjArr m c) (weightArr m c) (biasArr m c) (ix2 r cc) = _
  rw [Cert.ReferenceIdeal.Read.val_main_v11_apply, Cert.ReferenceIdeal.Read.val_main_v9_apply, Cert.ReferenceIdeal.Read.val_main_v3_apply, Cert.ReferenceIdeal.Read.val_main_v8_apply,
    Cert.ReferenceIdeal.Read.val_main_v7_apply, Cert.ReferenceIdeal.Read.val_main_call1_v0_apply, Cert.ReferenceIdeal.Read.val_main_call1_cst_apply]
  have e3l : ∀ k, Cert.ReferenceIdeal.Read.lidx_main_v3 (ix2 r cc) k = ix2 r k :=
    fun k => funext fun a => match a with | ⟨0, _⟩ => rfl | ⟨1, _⟩ => rfl
  have e3r : ∀ k, Cert.ReferenceIdeal.Read.ridx_main_v3 (ix2 r cc) k = ix2 k cc :=
    fun k => funext fun a => match a with | ⟨0, _⟩ => rfl | ⟨1, _⟩ => rfl
  have e7 : Cert.ReferenceIdeal.Read.idx_main_v7 (Cert.ReferenceIdeal.Read.idx_main_v8 (ix2 r cc)) = ix1 cc :=
    funext fun a => match a with | ⟨0, _⟩ => rfl
  simp only [e3l, e3r, e7]
  rfl

/-! ## One position of what a point writes back -/

/-- What point t leaves at (p, c) of the first output block is the reference's first result at (400t + p, c). -/
theorem left_point (c : Dev nD) (t : Fin cfg0.N) (p : Fin 400) (cc : Fin 128) :
    k0_pay4 (F := Ideal) (adjBlock m c t) (carried m c) (biasBlock m c t) (ix2 p cc)
      = leftResult m c (ix2 (rowOf t p) cc) := by
  rw [left_payload_apply (adjBlock m c t) (carried m c) (biasBlock m c t) p cc, leftResult_apply m c (rowOf t p) cc,
    biasBlock_eq m c t, doubledBias_left m c cc]
  refine congrArg (fun s => max (s + biasArr m c (ix1 cc)) zeroWord) (Finset.sum_congr rfl fun k _ => ?_)
  rw [adjBlock_apply m c t p k]
  unfold carried
  rw [support_left, oriBlock_eq m c first, weightBlock_eq m c first, left_half_eq]

/-- The same for the second output block and the second result. -/
theorem right_point (c : Dev nD) (t : Fin cfg0.N) (p : Fin 400) (cc : Fin 128) :
    k0_pay5 (F := Ideal) (adjBlock m c t) (carried m c) (biasBlock m c t) (ix2 p cc)
      = rightResult m c (ix2 (rowOf t p) cc) := by
  rw [right_payload_apply (adjBlock m c t) (carried m c) (biasBlock m c t) p cc, rightResult_apply m c (rowOf t p) cc,
    biasBlock_eq m c t, doubledBias_right m c cc]
  refine congrArg (fun s => max (s + biasArr m c (ix1 cc)) zeroWord) (Finset.sum_congr rfl fun k _ => ?_)
  rw [adjBlock_apply m c t p k]
  unfold carried
  rw [support_right, augBlock_eq m c first, weightBlock_eq m c first, right_half_eq]

/-! ## The flushed blocks, the cover, the arrays after the run -/

/-- WHAT POINT t WRITES BACK to the first output array is block t of the reference's first result. -/
theorem left_flushed (c : Dev nD) (t : Fin cfg0.N) :
    (dats m 0 c).flushed 5 t = ((cfg0.win 5).blk t).view.read (Elt Ideal) (leftResult m c) := by
  rw [Cert.KernelIdeal.Value.flushed5, left_after]
  obtain ⟨-, -, -, -, -, -, -, -, -, -, e0, e1, -⟩ := index_facts t
  funext y
  obtain ⟨p, cc, rfl⟩ : ∃ (p : Fin 400) (cc : Fin 128), y = ix2 p cc := ⟨y 0, y 1, eq_ix2 y⟩
  show k0_pay4 (F := Ideal) (adjBlock m c t) (carried m c) (biasBlock m c t) (ix2 p cc)
    = leftResult m c (((cfg0.win 5).blk t).view.emb (ix2 p cc))
  rw [left_point m c t p cc]
  refine congrArg (leftResult m c) (funext fun a => Fin.ext ?_)
  match a with
  | ⟨0, _⟩ => show t.val * 400 + p.val = win0_5.index t (0 : Fin 2) * 400 + 1 * p.val; omega
  | ⟨1, _⟩ => show cc.val = win0_5.index t (1 : Fin 2) * 128 + 1 * cc.val; omega

/-- The same for the second output array. -/
theorem right_flushed (c : Dev nD) (t : Fin cfg0.N) :
    (dats m 0 c).flushed 6 t = ((cfg0.win 6).blk t).view.read (Elt Ideal) (rightResult m c) := by
  rw [Cert.KernelIdeal.Value.flushed6, right_after]
  obtain ⟨-, -, -, -, -, -, -, -, -, -, -, -, e0, e1⟩ := index_facts t
  funext y
  obtain ⟨p, cc, rfl⟩ : ∃ (p : Fin 400) (cc : Fin 128), y = ix2 p cc := ⟨y 0, y 1, eq_ix2 y⟩
  show k0_pay5 (F := Ideal) (adjBlock m c t) (carried m c) (biasBlock m c t) (ix2 p cc)
    = rightResult m c (((cfg0.win 6).blk t).view.emb (ix2 p cc))
  rw [right_point m c t p cc]
  refine congrArg (rightResult m c) (funext fun a => Fin.ext ?_)
  match a with
  | ⟨0, _⟩ => show t.val * 400 + p.val = win0_6.index t (0 : Fin 2) * 400 + 1 * p.val; omega
  | ⟨1, _⟩ => show cc.val = win0_6.index t (1 : Fin 2) * 128 + 1 * cc.val; omega

/-- The point whose block holds row r: r / 400. -/
abbrev pointOf (i : S10000x128.Idx) : Fin cfg0.N :=
  ⟨(i 0).val / 400, by rw [grid_points]; have : (i 0).val < 10000 := (i 0).isLt; omega⟩

/-- An index of the first output array is in block t iff each coordinate is in the block's range on its axis. -/
theorem left_mem_block (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2_0).slice (win0_5.rect t)).set ↔ _
  rw [View.set_slice_whole, Rect.mem_set_unit]
  exact Iff.rfl

theorem right_mem_block (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2_1).slice (win0_6.rect t)).set ↔ _
  rw [View.set_slice_whole, Rect.mem_set_unit]
  exact Iff.rfl

/-- The 25 row blocks cover the first output array. -/
theorem left_cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨-, -, -, -, -, -, -, -, -, -, e0, e1, -⟩ := index_facts (pointOf i)
  have e0' : win0_5.index (pointOf i) (0 : Fin 2) = (i 0).val / 400 := e0
  refine ⟨pointOf i, flush0_5 _, ?_⟩
  rw [left_mem_block]
  intro a
  match a with
  | ⟨0, _⟩ => show win0_5.index (pointOf i) (0 : Fin 2) * 400 ≤ (i 0).val ∧ (i 0).val < win0_5.index (pointOf i) (0 : Fin 2) * 400 + 400; omega
  | ⟨1, _⟩ => show win0_5.index (pointOf i) (1 : Fin 2) * 128 ≤ (i 1).val ∧ (i 1).val < win0_5.index (pointOf i) (1 : Fin 2) * 128 + 128; omega

/-- And the second. -/
theorem right_cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  obtain ⟨-, -, -, -, -, -, -, -, -, -, -, -, e0, e1⟩ := index_facts (pointOf i)
  have e0' : win0_6.index (pointOf i) (0 : Fin 2) = (i 0).val / 400 := e0
  refine ⟨pointOf i, flush0_6 _, ?_⟩
  rw [right_mem_block]
  intro a
  match a with
  | ⟨0, _⟩ => show win0_6.index (pointOf i) (0 : Fin 2) * 400 ≤ (i 0).val ∧ (i 0).val < win0_6.index (pointOf i) (0 : Fin 2) * 400 + 400; omega
  | ⟨1, _⟩ => show win0_6.index (pointOf i) (1 : Fin 2) * 128 ≤ (i 1).val ∧ (i 1).val < win0_6.index (pointOf i) (1 : Fin 2) * 128 + 128; omega

/-- THE FIRST OUTPUT ARRAY after the run is the reference's first result of the arguments. -/
theorem left_final (c : Dev nD) : (dats m 0 c).arrAt 5 cfg0.N = leftResult m c :=
  (dats m 0 c).arrAt_eq_of_cover 5 (leftResult m c) (fun t _ => left_flushed m c t) left_cover

/-- THE SECOND OUTPUT ARRAY after the run is the reference's second result. -/
theorem right_final (c : Dev nD) : (dats m 0 c).arrAt 6 cfg0.N = rightResult m c :=
  (dats m 0 c).arrAt_eq_of_cover 6 (rightResult m c) (fun t _ => right_flushed m c t) right_cover

/-! ## The run, read -/

/-- Every weakly fair execution of the idealized kernel program ends with its two results at the reference's two
    results of the argument arrays, and the arguments unchanged. -/
theorem run : θ_run defs (onTc (τ := τ) (main (F := Ideal))) ⟨m, fun _ => 0, ρ⟩ fun r => ∀ c : Dev nD,
      r.2.mem ((c : Thread nD τ).loc main_v2_0) = leftResult m c
      ∧ r.2.mem ((c : Thread nD τ).loc main_v2_1) = rightResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (left_final m c), (h c).2.1.trans (right_final m c), (h c).2.2⟩)
    (Cert.KernelIdeal.Value.run_blocks m ρ)

end Cert.KernelIdeal.Blocks

end
-- ==== Proof.lean ====
/-
  Two programs compute one graph-convolution layer for two feature matrices at once:

      out_x(r, c) = max( sum over k of adjacency(r, k) * ( sum over j of feature_x(k, j) * weight(j, c) ) + bias(c), 0 )

  for x in {ori, aug}, over 10000 nodes and 128 features.

  The reference does it with four host matrix products, two broadcast additions and two maxima with zero.

  The kernel walks 25 blocks of 400 adjacency rows. At the first block it fills a [10000, 256] scratch with
  feature_ori x weight in columns 0..127 and feature_aug x weight in columns 128..255 (narrowed to a shorter float
  format, which over the extended reals changes nothing); the scratch is only read afterwards, so every block sees the
  same contents. At each block it multiplies the 400 adjacency rows into the scratch, adds a row holding the bias
  twice, takes the maximum with zero, and writes columns 0..127 to the first output and 128..255 to the second.

  Over the extended reals a product accumulated into zero is the plain sum of products, the same sum a host
  `dot_general` is; so position by position each output block is the block of the reference's result, and the 25
  blocks cover the 10000 rows. No law of arithmetic beyond reading both sides as the same sums is used, so the
  precondition on the inputs is never opened.

  The three frame claims: the two kernel programs' are the generated frames; the reference's is its generated run
  with the results dropped. The idealization rewrote nothing, so `preserves` is `True`.
-/
import proofs.«172569_g18528488915635_cont_8to1_1622_9_alg».proof.Defs
import proofs.«172569_g18528488915635_cont_8to1_1622_9_alg».proof.Proof.Gen.Kernel
import proofs.«172569_g18528488915635_cont_8to1_1622_9_alg».proof.Proof.Gen.Kernel.Skeleton
import proofs.«172569_g18528488915635_cont_8to1_1622_9_alg».proof.Proof.Gen.Kernel.Launch
import proofs.«172569_g18528488915635_cont_8to1_1622_9_alg».proof.Proof.Gen.Kernel.Points
import proofs.«172569_g18528488915635_cont_8to1_1622_9_alg».proof.Proof.Gen.Kernel.Frame
import proofs.«172569_g18528488915635_cont_8to1_1622_9_alg».proof.Proof.Gen.KernelIdeal
import proofs.«172569_g18528488915635_cont_8to1_1622_9_alg».proof.Proof.Gen.KernelIdeal.Skeleton
import proofs.«172569_g18528488915635_cont_8to1_1622_9_alg».proof.Proof.Gen.KernelIdeal.Launch
import proofs.«172569_g18528488915635_cont_8to1_1622_9_alg».proof.Proof.Gen.KernelIdeal.Points
import proofs.«172569_g18528488915635_cont_8to1_1622_9_alg».proof.Proof.Gen.KernelIdeal.Frame
import proofs.«172569_g18528488915635_cont_8to1_1622_9_alg».proof.Proof.Gen.ReferenceIdeal
import proofs.«172569_g18528488915635_cont_8to1_1622_9_alg».proof.Proof.Gen.Pre_finite_inputs
import proofs.«172569_g18528488915635_cont_8to1_1622_9_alg».proof.Proof.Gen.KernelIdeal.Value
import proofs.«172569_g18528488915635_cont_8to1_1622_9_alg».proof.Proof.Gen.ReferenceIdeal.Run
import proofs.«172569_g18528488915635_cont_8to1_1622_9_alg».proof.Proof.Gen.ReferenceIdeal.Read
import proofs.«172569_g18528488915635_cont_8to1_1622_9_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments alone: its run, the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the five arguments, the idealized kernel ends with its two outputs at the reference's
    two results of ITS arguments (the blocks put together), and the reference ends with its results at the same two
    functions of arguments that are the same arrays. -/
theorem algebraic : Cert.algebraic_KernelIdeal_ReferenceIdeal := by
  intro m ρ m' ρ' _ hagree
  refine ⟨fun c => Cert.KernelIdeal.Blocks.leftResult m c, fun c => Cert.KernelIdeal.Blocks.rightResult m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1, (hagree c).2.2.2.1, (hagree c).2.2.2.2]
    rfl
  · rw [(hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
